-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S500000 : Shape := ⟨1, ![500000]⟩
abbrev S1x384 : Shape := ⟨2, ![1, 384]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S1x384 : S_.BroadcastsInDim S1x384 (![] : Fin 0 → Fin S1x384.rank)
  reducesTo_S1x384_S_d0_1 : S1x384.ReducesTo [0, 1] S_
  bcast_S_S1 : S_.BroadcastsInDim S1 (![] : Fin 0 → Fin S1.rank)
  reducesTo_S1_S_d0 : S1.ReducesTo [0] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg2 : IVec S500000 32) (main_arg3 : IVec S500000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S500000 32 := broadcastInDim S500000 ![] bcast_S_S500000 main_c_6
  let main_v20 : IVec S500000 1 := cmpi .sge main_arg2 main_v19
  let main_c_7 : IVec S_ 1 := constantI S_ 1 1#1
  let main_v21 : IVec S_ 1 := (fun x v => Host.reduce IntOp.andi x v reducesTo_S500000_S_d0 h_S_) main_v20 main_c_7
  let main_v22 : IVec S_ 1 := andi main_v18 main_v21
  let main_c_8 : IVec S_ 32 := constantI S_ 32 0#32
  let main_v23 : IVec S500000 32 := broadcastInDim S500000 ![] bcast_S_S500000 main_c_8
  let main_v24 : IVec S500000 1 := cmpi .sge main_arg3 main_v23
  let main_c_9 : IVec S_ 1 := constantI S_ 1 1#1
  let main_v25 : IVec S_ 1 := (fun x v => Host.reduce IntOp.andi x v reducesTo_S500000_S_d0 h_S_) main_v24 main_c_9
  let main_v26 : IVec S_ 1 := andi main_v22 main_v25
  main_v26

def fn {F : FTy → Type} [FloatOps F] (main_arg0 : FVec F S50000x128 .f32) (main_arg1 : FVec F S500000x128 .f32) (main_arg2 : IVec S500000 32) (main_arg3 : IVec S500000 32) (main_arg4 : FVec F S1x384 .f32) (main_arg5 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S1x384 .f32 := Host.absf main_arg4
  let main_cst_2 : FVec F S_ .f32 := constant S_ .f32 0x7F800000#32
  let main_v10 : FVec F S1x384 .f32 := broadcastInDim S1x384 ![] bcast_S_S1x384 main_cst_2
  let main_v11 : IVec S1x384 1 := cmpf .olt main_v9 main_v10
  let main_c_3 : IVec S_ 1 := constantI S_ 1 1#1
  let main_v12 : IVec S_ 1 := (fun x v => Host.reduce IntOp.andi x v reducesTo_S1x384_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_arg3 main_v13 main_v16
-- ==== Kernel.lean ====
abbrev S50000x128 : Shape := ⟨2, ![50000, 128]⟩
abbrev S500000x128 : Shape := ⟨2, ![500000, 128]⟩
abbrev S500000 : Shape := ⟨1, ![500000]⟩
abbrev S1x384 : Shape := ⟨2, ![1, 384]⟩
abbrev S1 : Shape := ⟨1, ![1]⟩
abbrev S1x128 : Shape := ⟨2, ![1, 128]⟩
abbrev S2x128 : Shape := ⟨2, ![2, 128]⟩
abbrev S50000x2 : Shape := ⟨2, ![50000, 2]⟩
abbrev S5000x128 : Shape := ⟨2, ![5000, 128]⟩
abbrev S5000x2 : Shape := ⟨2, ![5000, 2]⟩
abbrev S128x2 : Shape := ⟨2, ![128, 2]⟩
abbrev S50000x1 : Shape := ⟨2, ![50000, 1]⟩
abbrev S50000 : Shape := ⟨1, ![50000]⟩
abbrev S500000x1 : Shape := ⟨2, ![500000, 1]⟩
abbrev S20x1x25000 : Shape := ⟨3, ![20, 1, 25000]⟩
abbrev S1x1 : Shape := ⟨2, ![1, 1]⟩
abbrev S1x1x25000 : Shape := ⟨3, ![1, 1, 25000]⟩
abbrev S25000x128 : Shape := ⟨2, ![25000, 128]⟩
abbrev S1x25000 : Shape := ⟨2, ![1, 25000]⟩

abbrev nBuf : Space → Nat
  | .hbm => 24
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S500000, .i32⟩
  | .hbm, ⟨3, _⟩ => ⟨S500000, .i32⟩
  | .hbm, ⟨4, _⟩ => ⟨S1x384, .f32⟩
  | .hbm, ⟨5, _⟩ => ⟨S1, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S2x128, .f32⟩
  | .hbm, ⟨10, _⟩ => ⟨S50000x2, .f32⟩
  | .hbm, ⟨11, _⟩ => ⟨S50000x1, .f32⟩
  | .hbm, ⟨12, _⟩ => ⟨S50000, .f32⟩
  | .hbm, ⟨13, _⟩ => ⟨S50000x1, .f32⟩
  | .hbm, ⟨14, _⟩ => ⟨S50000, .f32⟩
  | .hbm, ⟨15, _⟩ => ⟨S500000x1, .i32⟩
  | .hbm, ⟨16, _⟩ => ⟨S500000, .f32⟩
  | .hbm, ⟨17, _⟩ => ⟨S500000x1, .i32⟩
  | .hbm, ⟨18, _⟩ => ⟨S500000, .f32⟩
  | .hbm, ⟨19, _⟩ => ⟨S20x1x25000, .f32⟩
  | .hbm, ⟨20, _⟩ => ⟨S20x1x25000, .f32⟩
  | .hbm, ⟨21, _⟩ => ⟨S1x1, .f32⟩
  | .hbm, ⟨22, _⟩ => ⟨S20x1x25000, .f32⟩
  | .hbm, ⟨23, _⟩ => ⟨S500000x1, .f32⟩
  | .local _ .vmem, ⟨0, _⟩ => ⟨S5000x128, .f32⟩
  | .local _ .vmem, ⟨1, _⟩ => ⟨S5000x128, .f32⟩
  | .local _ .vmem, ⟨2, _⟩ => ⟨S2x128, .f32⟩
  | .local _ .vmem, ⟨3, _⟩ => ⟨S5000x2, .f32⟩
  | .local _ .vmem, ⟨4, _⟩ => ⟨S5000x2, .f32⟩
  | .local _ .vmem, ⟨5, _⟩ => ⟨S1x1x25000, .f32⟩
  | .local _ .vmem, ⟨6, _⟩ => ⟨S1x1x25000, .f32⟩
  | .local _ .vmem, ⟨7, _⟩ => ⟨S1x1x25000, .f32⟩
  | .local _ .vmem, ⟨8, _⟩ => ⟨S1x1x25000, .f32⟩
  | .local _ .vmem, ⟨9, _⟩ => ⟨S25000x128, .f32⟩
  | .local _ .vmem, ⟨10, _⟩ => ⟨S25000x128, .f32⟩
  | .local _ .vmem, ⟨11, _⟩ => ⟨S1x128, .f32⟩
  | .local _ .vmem, ⟨12, _⟩ => ⟨S1x1, .f32⟩
  | .local _ .vmem, ⟨13, _⟩ => ⟨S1x1x25000, .f32⟩
  | .local _ .vmem, ⟨14, _⟩ => ⟨S1x1x25000, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_v9 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x25000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x25000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S25000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x25000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S1x384_S1x128_0_0 : S1x384.Slices ![0, 0] S1x128
  slices_S1x384_S1x128_0_128 : S1x384.Slices ![0, 128] S1x128
  slices_S1x384_S1x128_0_256 : S1x384.Slices ![0, 256] S1x128
  concatenates_S1x128_S1x128_S2x128_d0 : Shape.Concatenates [S1x128, S1x128] S2x128 0
  inb_S5000x128_S5000x128_0_0 : ∀ a, (![0, 0] : Fin 2 → Nat) a + S5000x128.size a ≤ S5000x128.size a
  h_S5000x128 : 0 < S5000x128.numel
  inb_S2x128_S2x128_0_0 : ∀ a, (![0, 0] : Fin 2 → Nat) a + S2x128.size a ≤ S2x128.size a
  h_S2x128 : 0 < S2x128.numel
  shapeCasts_S2x128_S2x128 : S2x128.ShapeCasts S2x128
  transposes_S2x128_p1_0_S128x2 : S2x128.Transposes [1, 0] S128x2
  inb_S5000x2_S5000x2_0_0 : ∀ a, (![0, 0] : Fin 2 → Nat) a + S5000x2.size a ≤ S5000x2.size a
  h_S5000x2 : 0 < S5000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S500000_S500000x1_0 : S500000.BroadcastsInDim S500000x1 (![0] : Fin 1 → Fin S500000x1.rank)
  shapeCasts_S500000_S20x1x25000 : S500000.ShapeCasts S20x1x25000
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S25000x128_S25000x128_0_0 : ∀ a, (![0, 0] : Fin 2 → Nat) a + S25000x128.size a ≤ S25000x128.size a
  h_S25000x128 : 0 < S25000x128.numel
  inb_S1x1x25000_S1x1x25000_0_0_0 : ∀ a, (![0, 0, 0] : Fin 3 → Nat) a + S1x1x25000.size a ≤ S1x1x25000.size a
  h_S1x1x25000 : 0 < S1x1x25000.numel
  shapeCasts_S1x1x25000_S1x25000 : S1x1x25000.ShapeCasts S1x25000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x25000 : S1x1.Broadcasts S1x25000
  shapeCasts_S1x25000_S1x1x25000 : S1x25000.ShapeCasts S1x1x25000
  shapeCasts_S20x1x25000_S500000x1 : S20x1x25000.ShapeCasts S500000x1
  dot_S5000x128_S128x2_S5000x2_1_0_0_1_n_n_wf : DotDims.WF S5000x128 S128x2 S5000x2 [1] [0] [0] [1] [] []
  gather_S50000_S500000x1_S500000_n_0_n_n_0_1_1_wf : GatherDims.WF S50000 S500000x1 S500000 [] [0] [] [0] [] 1 ![1]
  dot_S1x128_S25000x128_S1x25000_1_1_0_0_n_n_wf : DotDims.WF S1x128 S25000x128 S1x25000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S50000x2.size a
  hwx0_2 : ∀ i : grid0.Coords, EltTy.bits .f32 = 32 ∨ (Rect.block (s := S50000x2) S5000x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x25000.size a ≤ S20x1x25000.size a
  hwx1_0 : ∀ i : grid1.Coords, EltTy.bits .f32 = 32 ∨ (Rect.block (s := S20x1x25000) S1x1x25000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x25000.size a ≤ S20x1x25000.size a
  hwx1_1 : ∀ i : grid1.Coords, EltTy.bits .f32 = 32 ∨ (Rect.block (s := S20x1x25000) S1x1x25000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x128.size a ≤ S500000x128.size a
  hwx1_2 : ∀ i : grid1.Coords, EltTy.bits .f32 = 32 ∨ (Rect.block (s := S500000x128) S25000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x25000.size a ≤ S20x1x25000.size a
  hwx1_5 : ∀ i : grid1.Coords, EltTy.bits .f32 = 32 ∨ (Rect.block (s := S20x1x25000) S1x1x25000.size (cc1_transform_5 i) (hinb1_5 i)).WholeWords (EltTy.packing .f32)

variable [Facts₀]

def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S1x128_S25000x128_S1x25000_1_1_0_0_n_n : DotDims S1x128 S25000x128 S1x25000 where
  lhsContracting := [1]
  rhsContracting := [1]
  lhsNonContracting := [0]
  rhsNonContracting := [0]
  lhsBatch := []
  rhsBatch := []
  wf := dot_S1x128_S25000x128_S1x25000_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1x1x25000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1x25000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S25000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x1x25000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S500000 : Shape := ⟨1, ![500000]⟩
abbrev S1x384 : Shape := ⟨2, ![1, 384]⟩
abbrev S1 : Shape := ⟨1, ![1]⟩
abbrev S_ : Shape := ⟨0, ![]⟩
abbrev S500000x1 : Shape := ⟨2, ![500000, 1]⟩
abbrev S1x128 : Shape := ⟨2, ![1, 128]⟩
abbrev S128x1 : Shape := ⟨2, ![128, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S500000, .i32⟩
  | .hbm, ⟨3, _⟩ => ⟨S500000, .i32⟩
  | .hbm, ⟨4, _⟩ => ⟨S1x384, .f32⟩
  | .hbm, ⟨5, _⟩ => ⟨S1, .f32⟩
  | .hbm, ⟨6, _⟩ => ⟨S_, .i32⟩
  | .hbm, ⟨7, _⟩ => ⟨S500000, .i32⟩
  | .hbm, ⟨8, _⟩ => ⟨S500000, .i1⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000x1, .i32⟩
  | .hbm, ⟨14, _⟩ => ⟨S500000x128, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S128x1, .f32⟩
  | .hbm, ⟨28, _⟩ => ⟨S500000x1, .f32⟩
  | .hbm, ⟨29, _⟩ => ⟨S128x1, .f32⟩
  | .hbm, ⟨30, _⟩ => ⟨S500000x1, .f32⟩
  | .hbm, ⟨31, _⟩ => ⟨S500000x1, .f32⟩
  | .hbm, ⟨32, _⟩ => ⟨S128x1, .f32⟩
  | .hbm, ⟨33, _⟩ => ⟨S500000x1, .f32⟩
  | .hbm, ⟨34, _⟩ => ⟨S500000x1, .f32⟩
  | .hbm, ⟨35, _⟩ => ⟨S1x1, .f32⟩
  | .hbm, ⟨36, _⟩ => ⟨S500000x1, .f32⟩
  | .hbm, ⟨37, _⟩ => ⟨S500000x1, .f32⟩
  | .hbm, ⟨38, _⟩ => ⟨S500000x1, .f32⟩
  | .hbm, ⟨39, _⟩ => ⟨S500000x1, .f32⟩
  | .hbm, ⟨40, _⟩ => ⟨S_, .f32⟩
  | .hbm, ⟨41, _⟩ => ⟨S500000x1, .f32⟩
  | .hbm, ⟨42, _⟩ => ⟨S500000x1, .f32⟩
  | .hbm, ⟨43, _⟩ => ⟨S_, .f32⟩
  | .hbm, ⟨44, _⟩ => ⟨S500000x1, .f32⟩
  | .hbm, ⟨45, _⟩ => ⟨S500000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S1x384_S1x128_0_0 : S1x384.Slices ![0, 0] S1x128
  slices_S1x384_S1x128_0_128 : S1x384.Slices ![0, 128] S1x128
  slices_S1x384_S1x128_0_256 : S1x384.Slices ![0, 256] S1x128
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  gather_S50000x128_S500000x1_S500000x128_1_0_n_n_0_1_1128_wf : GatherDims.WF S50000x128 S500000x1 S500000x128 [1] [0] [] [0] [] 1 ![1, 128]
  dot_S500000x128_S128x1_S500000x1_1_0_0_1_n_n_wf : DotDims.WF S500000x128 S128x1 S500000x1 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.HostChain.lean ====
/-
  The host operations around the two launches, read back.

  Between the launch memory and the result the program runs five short stretches of host operations. Read at the
  buffers the launches take and the result leaves, they say:
    * the first launch's operands are the node array as launched and the two leading 128-wide segments of the weight
      row stacked as two rows;
    * the second launch's two gathered operands are, for each id vector, the matching column of the first launch's
      result taken at the ids (a gather, which clamps), laid out as 20 blocks of 25000; its other operands are the
      edge array as launched, the third weight segment, and the bias as a 1×1 array;
    * the program's result is the second launch's result laid out as a column.
  No argument array is written on the way, so each is read back as launched.
-/
import proofs.«410847_j86792699118121_3_alg».proof.Proof.Gen.KernelIdeal.Frame
import Idealize.ShloMosaic.Lib.StableHlo.Run
import Idealize.ShloMosaic.PureOps.Ideal

set_option maxRecDepth 16384

noncomputable section

namespace Cert.KernelIdeal.HostChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The arguments as launched, at their literal types. -/
abbrev nodes (c : Dev nD) : FVec Ideal S50000x128 .f32 := m ((c.tc : Thread nD τ).loc main_arg0)
abbrev edges (c : Dev nD) : FVec Ideal S500000x128 .f32 := m ((c.tc : Thread nD τ).loc main_arg1)
abbrev srcIds (c : Dev nD) : IVec S500000 32 := m ((c.tc : Thread nD τ).loc main_arg2)
abbrev dstIds (c : Dev nD) : IVec S500000 32 := m ((c.tc : Thread nD τ).loc main_arg3)
abbrev weights (c : Dev nD) : FVec Ideal S1x384 .f32 := m ((c.tc : Thread nD τ).loc main_arg4)
abbrev bias (c : Dev nD) : FVec Ideal S1 .f32 := m ((c.tc : Thread nD τ).loc main_arg5)

/-- The first launch's result array, and the second's, as the following stretch finds them. -/
abbrev projArr (c : Dev nD) : FVec Ideal S50000x2 .f32 := W2 m ρ c (Proc.devRef .tc main_v4)
abbrev outArr (c : Dev nD) : FVec Ideal S20x1x25000 .f32 := W7 m ρ c (Proc.devRef .tc main_v14)

/-- The two leading weight segments stacked as two rows. -/
def stacked (W : FVec Ideal S1x384 .f32) : FVec Ideal S2x128 .f32 :=
  concatenate S2x128 0 [⟨S1x128, extractStridedSlice S1x128 ![0, 0] W slices_S1x384_S1x128_0_0⟩,
    ⟨S1x128, extractStridedSlice S1x128 ![0, 128] W slices_S1x384_S1x128_0_128⟩] concatenates_S1x128_S1x128_S2x128_d0

/-- Column `col` of the projection taken at the ids, laid out as 20 blocks of 25000. -/
def gathered (proj : FVec Ideal S50000x2 .f32) (ids : IVec S500000 32) (off : Fin 2 → Nat)
    (hs : S50000x2.Slices off S50000x1) : FVec Ideal S20x1x25000 .f32 :=
  shapeCast S20x1x25000
    (Host.gather gather_S50000_S500000x1_S500000_n_0_n_n_0_1_1
      (shapeCast S50000 (extractStridedSlice S50000x1 off proj hs) shapeCasts_S50000x1_S50000)
      (broadcastInDim S500000x1 ![0] bcast_S500000_S500000x1_0 ids))
    shapeCasts_S500000_S20x1x25000

/-! ## Before the first launch -/

theorem entry0_nodes (c : Dev nD) : (V1 m ρ c main_arg0 : FVec Ideal S50000x128 .f32) = nodes m c := by
  show StableHlo.after hostOps0 (W0 m ρ c) (Proc.devRef .tc main_arg0) = _
  after_results <;> rfl

theorem entry0_stacked (c : Dev nD) : (V1 m ρ c main_v3 : FVec Ideal S2x128 .f32) = stacked (weights m c) := by
  show StableHlo.after hostOps0 (W0 m ρ c) (Proc.devRef .tc main_v3) = _
  after_results <;> rfl

/-! ## Across the first launch: what it does not write keeps its contents -/

theorem mid_src (c : Dev nD) : (W2 m ρ c (Proc.devRef .tc main_arg2) : IVec S500000 32) = srcIds m c := by
  rw [W2_of_ne m ρ c main_arg2 (by decide)]
  show StableHlo.after hostOps0 (W0 m ρ c) (Proc.devRef .tc main_arg2) = _
  after_results <;> rfl

theorem mid_dst (c : Dev nD) : (W2 m ρ c (Proc.devRef .tc main_arg3) : IVec S500000 32) = dstIds m c := by
  rw [W2_of_ne m ρ c main_arg3 (by decide)]
  show StableHlo.after hostOps0 (W0 m ρ c) (Proc.devRef .tc main_arg3) = _
  after_results <;> rfl

theorem mid_edges (c : Dev nD) : (W2 m ρ c (Proc.devRef .tc main_arg1) : FVec Ideal S500000x128 .f32) = edges m c := by
  rw [W2_of_ne m ρ c main_arg1 (by decide)]
  show StableHlo.after hostOps0 (W0 m ρ c) (Proc.devRef .tc main_arg1) = _
  after_results <;> rfl

theorem mid_bias (c : Dev nD) : (W2 m ρ c (Proc.devRef .tc main_arg5) : FVec Ideal S1 .f32) = bias m c := by
  rw [W2_of_ne m ρ c main_arg5 (by decide)]
  show StableHlo.after hostOps0 (W0 m ρ c) (Proc.devRef .tc main_arg5) = _
  after_results <;> rfl

theorem mid_third (c : Dev nD) : (W2 m ρ c (Proc.devRef .tc main_v2) : FVec Ideal S1x128 .f32)
    = extractStridedSlice S1x128 ![0, 256] (weights m c) slices_S1x384_S1x128_0_256 := by
  rw [W2_of_ne m ρ c main_v2 (by decide)]
  show StableHlo.after hostOps0 (W0 m ρ c) (Proc.devRef .tc main_v2) = _
  after_results <;> rfl

/-! ## Before the second launch -/

theorem entry1_src (c : Dev nD) : (V6 m ρ c main_v11 : FVec Ideal S20x1x25000 .f32)
    = gathered (projArr m ρ c) (srcIds m c) ![0, 0] slices_S50000x2_S50000x1_0_0 := by
  rw [← mid_src m ρ c]
  show StableHlo.after hostOps1_3 (StableHlo.after hostOps1_2 (StableHlo.after hostOps1_1 (StableHlo.after hostOps1 (W2 m ρ c))))
    (Proc.devRef .tc main_v11) = _
  after_results <;> rfl

theorem entry1_dst (c : Dev nD) : (V6 m ρ c main_v12 : FVec Ideal S20x1x25000 .f32)
    = gathered (projArr m ρ c) (dstIds m c) ![0, 1] slices_S50000x2_S50000x1_0_1 := by
  rw [← mid_dst m ρ c]
  show StableHlo.after hostOps1_3 (StableHlo.after hostOps1_2 (StableHlo.after hostOps1_1 (StableHlo.after hostOps1 (W2 m ρ c))))
    (Proc.devRef .tc main_v12) = _
  after_results <;> rfl

theorem entry1_edges (c : Dev nD) : (V6 m ρ c main_arg1 : FVec Ideal S500000x128 .f32) = edges m c := by
  rw [← mid_edges m ρ c]
  show StableHlo.after hostOps1_3 (StableHlo.after hostOps1_2 (StableHlo.after hostOps1_1 (StableHlo.after hostOps1 (W2 m ρ c))))
    (Proc.devRef .tc main_arg1) = _
  after_results <;> rfl

theorem entry1_third (c : Dev nD) : (V6 m ρ c main_v2 : FVec Ideal S1x128 .f32)
    = extractStridedSlice S1x128 ![0, 256] (weights m c) slices_S1x384_S1x128_0_256 := by
  rw [← mid_third m ρ c]
  show StableHlo.after hostOps1_3 (StableHlo.after hostOps1_2 (StableHlo.after hostOps1_1 (StableHlo.after hostOps1 (W2 m ρ c))))
    (Proc.devRef .tc main_v2) = _
  after_results <;> rfl

theorem entry1_bias (c : Dev nD) : (V6 m ρ c main_v13 : FVec Ideal S1x1 .f32)
    = shapeCast S1x1 (bias m c) shapeCasts_S1_S1x1 := by
  rw [← mid_bias m ρ c]
  show StableHlo.after hostOps1_3 (StableHlo.after hostOps1_2 (StableHlo.after hostOps1_1 (StableHlo.after hostOps1 (W2 m ρ c))))
    (Proc.devRef .tc main_v13) = _
  after_results <;> rfl

/-! ## After the second launch -/

theorem result_eq (c : Dev nD) : (W8 m ρ c (Proc.devRef .tc main_v15) : FVec Ideal S500000x1 .f32)
    = shapeCast S500000x1 (outArr m ρ c) shapeCasts_S20x1x25000_S500000x1 := by
  show StableHlo.after hostOps2 (W7 m ρ c) (Proc.devRef .tc main_v15) = _
  after_results <;> rfl

end Cert.KernelIdeal.HostChain

end
-- ==== Proof.EdgeScore.lean ====
/-
  The edge score as one function of the six argument arrays, entry by entry.

  For edge q with source node s and destination node d (each id read as a signed integer and clamped into the
  50000 rows of the node table), the logit is

      h[s, :] · W[0, 0:128]  +  h[d, :] · W[0, 128:256]  +  e[q, :] · W[0, 256:384]  +  b[0]

  added in exactly that order, each dot product a sum of 128 products over the extended reals, and the score is
  the logistic function 1 / (1 + exp (-logit)) of it. Both programs are shown to compute this function; nothing
  here needs the inputs to be finite, because neither program regroups a sum or moves a factor across one.
-/
import Idealize.ShloMosaic.Lib.ValueIdx

noncomputable section

open scoped BigOperators

namespace Cert.EdgeScore

open Idealize.ShloMosaic Idealize.ShloMosaic.ValueIdx

abbrev Nodes : Shape := ⟨2, ![50000, 128]⟩
abbrev Edges : Shape := ⟨2, ![500000, 128]⟩
abbrev Ids : Shape := ⟨1, ![500000]⟩
abbrev Weights : Shape := ⟨2, ![1, 384]⟩
abbrev Bias : Shape := ⟨1, ![1]⟩
abbrev Scores : Shape := ⟨2, ![500000, 1]⟩

/-- The table row a node id names: the id read as a signed integer and clamped into the table's 50000 rows
    (a negative id names row 0, an id past the end the last row). -/
def row (s : BitVec 32) : Fin 50000 := ⟨min s.toInt.toNat 49999, by omega⟩

/-- Column `off + k` of the one weight row, for a 128-wide segment that starts at `off`. -/
abbrev wcol (off : Nat) (hoff : off + 128 ≤ 384) (k : Fin 128) : Fin 384 := ⟨off + k.val, by omega⟩

/-- Node n's 128 features against the 128 weights of the segment starting at column `off`. -/
def nodeDot (h : FVec Ideal Nodes .f32) (W : FVec Ideal Weights .f32) (off : Nat) (hoff : off + 128 ≤ 384)
    (n : Fin 50000) : EReal :=
  ∑ k : Fin 128, h (ix2 n k) * W (ix2 (0 : Fin 1) (wcol off hoff k))

/-- Edge q's 128 features against the third weight segment. -/
def edgeDot (e : FVec Ideal Edges .f32) (W : FVec Ideal Weights .f32) (q : Fin 500000) : EReal :=
  ∑ k : Fin 128, e (ix2 q k) * W (ix2 (0 : Fin 1) (wcol 256 (by decide) k))

/-- The logit of edge q: source projection plus destination projection, plus the edge projection, plus the bias. -/
def logit (h : FVec Ideal Nodes .f32) (e : FVec Ideal Edges .f32) (src dst : IVec Ids 32)
    (W : FVec Ideal Weights .f32) (b : FVec Ideal Bias .f32) (q : Fin 500000) : EReal :=
  ((nodeDot h W 0 (by decide) (row (src (ix1 q))) + nodeDot h W 128 (by decide) (row (dst (ix1 q))))
      + edgeDot e W q) + b (ix1 (0 : Fin 1))

/-- The score array: the logistic function of each edge's logit. -/
def score (h : FVec Ideal Nodes .f32) (e : FVec Ideal Edges .f32) (src dst : IVec Ids 32)
    (W : FVec Ideal Weights .f32) (b : FVec Ideal Bias .f32) : FVec Ideal Scores .f32 :=
  fun i => Ideal.logistic (logit h e src dst W b ⟨(i 0).val, (i 0).isLt⟩)

/-- The f32 word 0x3F800000 is the number one. -/
theorem word_one : Ideal.ofBits .f32 0x3F800000#32 = (1 : EReal) := by
  simp [Ideal.ofBits, Ideal.ieee, -EReal.coe_mul]; norm_num

/-- The logistic function spelt as the host spells it: one over one plus the exponential of the negation, with
    both ones written as the f32 word. -/
theorem logistic_spelt (x : EReal) :
    Ideal.div (Ideal.ofBits .f32 0x3F800000#32) (Ideal.ofBits .f32 0x3F800000#32 + Ideal.exp (-x)) = Ideal.logistic x := by
  rw [word_one]; rfl

end Cert.EdgeScore

end
-- ==== Proof.HostReads.lean ====
/-
  The host operations between the launches, read at an entry.

  The stacked weight rows: row 0 is the weight row's columns 0 to 127, row 1 its columns 128 to 255. A gathered
  operand at block a, position r is the matching column of the projection at the row the id of edge 25000 a + r
  names: the reshape to blocks keeps the row-major position, the gather reads the flat column at the id read signed
  and clamped, the flat column is the [50000, 1] slice of the projection reshaped, and the slice is the projection's
  column.
-/
import proofs.«410847_j86792699118121_3_alg».proof.Proof.HostChain
import proofs.«410847_j86792699118121_3_alg».proof.Proof.EdgeScore
import Idealize.ShloMosaic.Lib.Pipeline.Value
import Idealize.ShloMosaic.Lib.ValueIdx
import Idealize.ShloMosaic.Lib.StableHlo.Predicate

set_option maxRecDepth 16384

noncomputable section

namespace Cert.KernelIdeal.HostReads

open Idealize.ShloMosaic Idealize.ShloMosaic.TcCoe Idealize.ShloMosaic.ValueIdx Idealize.SL.Sem
open Idealize.ShloMosaic.StableHlo.Predicate
open Cert.KernelIdeal Cert.KernelIdeal.Gen Cert.KernelIdeal.HostChain Cert.EdgeScore

/-- Row 0 of the stacked rows is the first weight segment. -/
theorem stacked_row0 (W : FVec Ideal S1x384 .f32) (k : Fin 128) :
    stacked W (ix2 (0 : Fin 2) k) = W (ix2 (0 : Fin 1) (wcol 0 (by decide) k)) := by
  unfold stacked
  refine (concatenate_pair_apply_left (t := S2x128) (s₁ := S1x128) (s₂ := S1x128) (0 : Fin 2) _ _
    concatenates_S1x128_S1x128_S2x128_d0 (ix2 (0 : Fin 2) k) rfl
    (ix2 (0 : Fin 1) k : S1x128.Idx) (fun b => match b with | ⟨0, _⟩ => rfl | ⟨1, _⟩ => rfl)).trans ?_
  exact extractStridedSlice_apply ![0, 0] W slices_S1x384_S1x128_0_0 (ix2 (0 : Fin 1) k)
    (ix2 (0 : Fin 1) (wcol 0 (by decide) k)) (fun a => match a with
      | ⟨0, _⟩ => rfl
      | ⟨1, _⟩ => rfl)

/-- Row 1 of the stacked rows is the second weight segment. -/
theorem stacked_row1 (W : FVec Ideal S1x384 .f32) (k : Fin 128) :
    stacked W (ix2 (1 : Fin 2) k) = W (ix2 (0 : Fin 1) (wcol 128 (by decide) k)) := by
  unfold stacked
  refine (concatenate_pair_apply_right (t := S2x128) (s₁ := S1x128) (s₂ := S1x128) (0 : Fin 2) _ _
    concatenates_S1x128_S1x128_S2x128_d0 (ix2 (1 : Fin 2) k) rfl rfl
    (ix2 (0 : Fin 1) k : S1x128.Idx) (fun b => match b with
      | ⟨0, _⟩ => fun h => absurd rfl h
      | ⟨1, _⟩ => fun _ => rfl) rfl).trans ?_
  exact extractStridedSlice_apply ![0, 128] W slices_S1x384_S1x128_0_128 (ix2 (0 : Fin 1) k)
    (ix2 (0 : Fin 1) (wcol 128 (by decide) k)) (fun a => match a with
      | ⟨0, _⟩ => rfl
      | ⟨1, _⟩ => rfl)

/-- The third weight segment at column k. -/
theorem third_apply (W : FVec Ideal S1x384 .f32) (k : Fin 128) :
    extractStridedSlice S1x128 ![0, 256] W slices_S1x384_S1x128_0_256 (ix2 (0 : Fin 1) k)
      = W (ix2 (0 : Fin 1) (wcol 256 (by decide) k)) :=
  extractStridedSlice_apply ![0, 256] W slices_S1x384_S1x128_0_256 (ix2 (0 : Fin 1) k)
    (ix2 (0 : Fin 1) (wcol 256 (by decide) k)) (fun a => match a with
      | ⟨0, _⟩ => rfl
      | ⟨1, _⟩ => rfl)

/-- The bias as a 1×1 array holds the bias. -/
theorem bias_apply (b : FVec Ideal S1 .f32) :
    shapeCast S1x1 b shapeCasts_S1_S1x1 (ix2 (0 : Fin 1) (0 : Fin 1)) = b (ix1 (0 : Fin 1)) :=
  shapeCast_apply b shapeCasts_S1_S1x1 (ix2 (0 : Fin 1) (0 : Fin 1)) (ix1 (0 : Fin 1))
    (by rw [Shape.rowMajor_val_one, Shape.rowMajor_val_two]; rfl)

/-- A gathered operand at block a, position r: column `col` of the projection at the row the id of edge
    25000 a + r names. -/
theorem gathered_apply (proj : FVec Ideal S50000x2 .f32) (ids : IVec S500000 32) (off : Fin 2 → Nat)
    (hs : S50000x2.Slices off S50000x1) (col : Fin 2) (h0 : off 0 = 0) (h1 : off 1 = col.val)
    (a : Fin 20) (r : Fin 25000) :
    gathered proj ids off hs (ix3 a (0 : Fin 1) r)
      = proj (ix2 (row (ids (ix1 ⟨25000 * a.val + r.val, by have := a.isLt; have := r.isLt; omega⟩))) col) := by
  have hq : 25000 * a.val + r.val < 500000 := by have := a.isLt; have := r.isLt; omega
  unfold gathered
  rw [shapeCast_apply _ shapeCasts_S500000_S20x1x25000 (ix3 a (0 : Fin 1) r) (Shape.Idx.ofFin ⟨25000 * a.val + r.val, hq⟩)
    (by rw [Shape.rowMajor_val_one, Shape.rowMajor_val_three]
        show 25000 * a.val + r.val = (a.val * 1 + 0) * 25000 + r.val
        omega)]
  rw [gather_take gather_S50000_S500000x1_S500000_n_0_n_n_0_1_1 rfl rfl rfl rfl _ _ _ (by decide)]
  have hid : broadcastInDim S500000x1 ![0] bcast_S500000_S500000x1_0 ids (ixP ⟨25000 * a.val + r.val, hq⟩)
      = ids (ix1 ⟨25000 * a.val + r.val, hq⟩) :=
    (bcast_col1 bcast_S500000_S500000x1_0 ids ⟨25000 * a.val + r.val, hq⟩).trans
      (congrArg ids (funext fun d => match d with | ⟨0, _⟩ => rfl))
  have hrow : (Shape.Idx.ofFin (⟨min (broadcastInDim S500000x1 ![0] bcast_S500000_S500000x1_0 ids
        (ixP ⟨25000 * a.val + r.val, hq⟩)).toInt.toNat (50000 - 1), by omega⟩ : Fin 50000) : S50000.Idx)
      = Shape.Idx.ofFin (row (ids (ix1 ⟨25000 * a.val + r.val, hq⟩))) :=
    congrArg Shape.Idx.ofFin (Fin.ext (by
      show min (broadcastInDim S500000x1 ![0] bcast_S500000_S500000x1_0 ids
          (ixP ⟨25000 * a.val + r.val, hq⟩)).toInt.toNat (50000 - 1)
        = min (ids (ix1 ⟨25000 * a.val + r.val, hq⟩)).toInt.toNat 49999
      rw [hid]))
  refine (congrArg (shapeCast S50000 (extractStridedSlice S50000x1 off proj hs) shapeCasts_S50000x1_S50000) hrow).trans ?_
  generalize row (ids (ix1 ⟨25000 * a.val + r.val, hq⟩)) = n
  rw [shapeCast_apply _ shapeCasts_S50000x1_S50000 (Shape.Idx.ofFin n) (ix2 n (0 : Fin 1))
    (by rw [Shape.rowMajor_val_one, Shape.rowMajor_val_two]
        show n.val * 1 + 0 = n.val
        omega)]
  exact extractStridedSlice_apply off proj hs (ix2 n (0 : Fin 1)) (ix2 n col) (fun b => match b with
    | ⟨0, _⟩ => by show n.val = off 0 + n.val; rw [h0]; omega
    | ⟨1, _⟩ => by show col.val = off 1 + 0; rw [h1]; omega)

end Cert.KernelIdeal.HostReads

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.NodeRegion.lean ====
/-
  The node projection, as an array.

  The first launch walks the 50000 node rows in ten blocks of 5000. At each block it multiplies the block
  [5000, 128] by the transpose of the two stacked weight rows [2, 128] into a zero accumulator and stores the
  [5000, 2] product whole. So entry (n, j) of the result array is the dot product of node row n with stacked
  weight row j, a sum of 128 products over the extended reals: block t = n / 5000 writes it, from row n of the
  node array (row n - 5000 t of block t) and the one weight block every point sees.
-/
import proofs.«410847_j86792699118121_3_alg».proof.Proof.Gen.KernelIdeal.Frame
import proofs.«410847_j86792699118121_3_alg».proof.Proof.LibPlainDot
import Idealize.ShloMosaic.Lib.Pipeline.Value
import Idealize.ShloMosaic.Lib.ValueIdx

set_option maxRecDepth 16384

noncomputable section

open scoped BigOperators

namespace Cert.KernelIdeal.NodeRegion

open Idealize.ShloMosaic Idealize.ShloMosaic.TcCoe Idealize.ShloMosaic.ValueIdx Idealize.SL.Sem
open Cert.KernelIdeal Cert.KernelIdeal.Gen

/-- Every node row against each of the two stacked weight rows. -/
def projOf (h : FVec Ideal S50000x128 .f32) (w : FVec Ideal S2x128 .f32) : FVec Ideal S50000x2 .f32 :=
  fun i => ∑ k : Fin 128, h (ix2 ⟨(i 0).val, (i 0).isLt⟩ k) * w (ix2 ⟨(i 1).val, (i 1).isLt⟩ k)

/-- The body's product at an entry: row p of the node block against row j of the weight block (the transpose
    the body takes turns the weight block's row j into column j of the right operand). -/
theorem payload_apply (x0 : Vec Ideal S5000x128 .f32) (x1 : Vec Ideal S2x128 .f32) (y : S5000x2.Idx) :
    k0_pay1 (F := Ideal) x0 x1 y
      = ∑ k : Fin 128, x0 (ix2 ⟨(y 0).val, (y 0).isLt⟩ k) * x1 (ix2 ⟨(y 1).val, (y 1).isLt⟩ k) := by
  unfold k0_pay1
  refine (PlainDot.matmul_zero_apply_at dot_S5000x128_S128x2_S5000x2_1_0_0_1_n_n rfl rfl rfl rfl rfl rfl rfl rfl none
    x0 _ y).trans ?_
  refine Finset.sum_congr rfl fun k _ => ?_
  congr 1
  rw [shapeCast_self]
  exact transpose_apply [1, 0] x1 transposes_S2x128_p1_0_S128x2 _ _ (fun b => match b with
    | ⟨0, _⟩ => rfl
    | ⟨1, _⟩ => rfl)

variable (V : (c : Dev nD) → (b : Ref sig .tc) → Buf (Elt Ideal) ((c : Thread nD τ).loc b))

/-- The node array and the stacked weight rows as the launch finds them, and their blocks at a point. -/
abbrev nodeArr (c : Dev nD) : Vec Ideal S50000x128 .f32 := V c main_arg0
abbrev wArr (c : Dev nD) : Vec Ideal S2x128 .f32 := V c main_v3
abbrev nodeBlk (c : Dev nD) (t : Fin cfg0.N) : Vec Ideal S5000x128 .f32 := iblk0 V c 0 t
abbrev wBlk (c : Dev nD) (t : Fin cfg0.N) : Vec Ideal S2x128 .f32 := iblk0 V c 1 t

theorem zero_off : (![0, 0] : Fin 2 → Nat) = fun _ => 0 := funext fun a => by fin_cases a <;> rfl

/-- The printed index maps over the ten points: the node window and the output window sit at block (t, 0),
    the weight window at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := lt_of_lt_of_eq t.isLt N_0

/-- Row p of block t is row 5000 t + p of the node array. -/
theorem nodeBlk_apply (c : Dev nD) (t : Fin cfg0.N) (p : Fin 5000) (k : Fin 128) :
    nodeBlk V c t (ix2 p k)
      = nodeArr V c (ix2 ⟨5000 * t.val + p.val, by have := point_lt t; have := p.isLt; omega⟩ k) := by
  obtain ⟨e0, e1, -, -, -, -⟩ := index_facts t
  show V c main_arg0 (((cfg0.win 0).blk t).view.emb (ix2 p k)) = V c main_arg0 _
  refine congrArg (V c main_arg0) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- Every point sees the whole weight array. -/
theorem wBlk_apply (c : Dev nD) (t : Fin cfg0.N) (j : Fin 2) (k : Fin 128) :
    wBlk V c t (ix2 j k) = wArr V c (ix2 j k) := by
  obtain ⟨-, -, e2, e3, -, -⟩ := index_facts t
  show V c main_v3 (((cfg0.win 1).blk t).view.emb (ix2 j k)) = V c main_v3 _
  refine congrArg (V c main_v3) (funext fun a => Fin.ext ?_)
  match a with
  | ⟨0, _⟩ => show win0_1.index t (0 : Fin 2) * 2 + 1 * j.val = j.val; omega
  | ⟨1, _⟩ => show win0_1.index t (1 : Fin 2) * 128 + 1 * k.val = k.val; omega

/-- What point t writes back is block t of the whole-array product. -/
theorem flushed_eq (c : Dev nD) (t : Fin cfg0.N) :
    (dat0 (F := Ideal) V c).flushed 2 t
      = ((cfg0.win 2).blk t).view.read (Elt Ideal) (projOf (nodeArr V c) (wArr V c)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S2x128) zero_off]
  obtain ⟨-, -, -, -, e4, e5⟩ := index_facts t
  funext j
  show k0_pay1 (F := Ideal) (nodeBlk V c t) (wBlk V c t) j
    = projOf (nodeArr V c) (wArr V c) (((cfg0.win 2).blk t).view.emb j)
  rw [payload_apply]
  unfold projOf
  refine Finset.sum_congr rfl fun k _ => ?_
  rw [nodeBlk_apply, wBlk_apply]
  have hj0 : (j 0).val < 5000 := (j 0).isLt
  have hj1 : (j 1).val < 2 := (j 1).isLt
  have a0 : ((((cfg0.win 2).blk t).view.emb j) 0).val = 5000 * t.val + (j 0).val := by
    show win0_2.index t (0 : Fin 2) * 5000 + 1 * (j 0).val = _; omega
  have a1 : ((((cfg0.win 2).blk t).view.emb j) 1).val = (j 1).val := by
    show win0_2.index t (1 : Fin 2) * 2 + 1 * (j 1).val = _; omega
  congr 1
  · exact congrArg (nodeArr V c) (funext fun a => Fin.ext (by
      match a with
      | ⟨0, _⟩ => exact a0.symm
      | ⟨1, _⟩ => rfl))
  · exact congrArg (wArr V c) (funext fun a => Fin.ext (by
      match a with
      | ⟨0, _⟩ => exact a1.symm
      | ⟨1, _⟩ => rfl))

/-- An index of the result array lies in point t's block iff each coordinate lies in the block's range. -/
theorem mem_blk (t : Fin cfg0.N) (i : S50000x2.Idx) :
    i ∈ ((cfg0.win 2).blk t).view.set ↔ ∀ a : Fin 2, win0_2.index t a * S5000x2.size a ≤ (i a).val
      ∧ (i a).val < win0_2.index t a * S5000x2.size a + S5000x2.size a := by
  show i ∈ ((View.whole main_v4).slice (win0_2.rect t)).set ↔ _
  rw [View.set_slice_whole, Rect.mem_set_unit]
  exact Iff.rfl

/-- The ten blocks tile the result array: row n lies in block n / 5000. -/
theorem covered (i : S50000x2.Idx) :
    ∃ t : Fin cfg0.N, (cfg0.win 2).flush t = true ∧ i ∈ ((cfg0.win 2).blk t).view.set := by
  have hi0 : (i 0).val < 50000 := (i 0).isLt
  have hi1 : (i 1).val < 2 := (i 1).isLt
  have hN : (i 0).val / 5000 < cfg0.N := by rw [show cfg0.N = 10 from N_0]; omega
  refine ⟨⟨(i 0).val / 5000, hN⟩, flush0_2 _, ?_⟩
  rw [mem_blk]
  obtain ⟨-, -, -, -, e4, e5⟩ := index_facts ⟨(i 0).val / 5000, hN⟩
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 2 ≤ (i 1).val
      ∧ (i 1).val < win0_2.index ⟨(i 0).val / 5000, hN⟩ (1 : Fin 2) * 2 + 2
    rw [e5]; omega

/-- The result array after the launch: every node row against each stacked weight row, whatever the launch
    found in the result array before. -/
theorem proj_array (c : Dev nD) :
    (dat0 (F := Ideal) V c).arrAt 2 cfg0.N = projOf (V c main_arg0) (V c main_v3) :=
  (dat0 (F := Ideal) V c).arrAt_eq_of_cover 2 (projOf (nodeArr V c) (wArr V c)) (fun t _ => flushed_eq V c t) covered

end Cert.KernelIdeal.NodeRegion

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.EdgeRegion.lean ====
/-
  The edge region's result array as one function of its five operand arrays.

  The region runs over 20 grid points. Point t reads row t of the two gathered score arrays (each [20, 1, 25000]),
  rows 25000 t … 25000 t + 24999 of the edge features ([500000, 128]), the whole weight row ([1, 128]) and the
  whole one-entry bias, and writes row t of the result ([20, 1, 25000]). At entry (t, 0, q) it leaves

      logistic (((gs (t, 0, q) + gd (t, 0, q)) + ∑ k, we (0, k) * e (25000 t + q, k)) + b (0, 0)),

  the sum of 128 products being the product of the weight row with the transposed edge block, started from zero.
  First one point's arithmetic is read entry by entry; then each input block is read as a part of its array; then
  the 20 written rows, which cover the result array, are put together.
-/
import proofs.«410847_j86792699118121_3_alg».proof.Proof.Gen.KernelIdeal.Frame
import proofs.«410847_j86792699118121_3_alg».proof.Proof.EdgeScore
import proofs.«410847_j86792699118121_3_alg».proof.Proof.LibDotT
import Idealize.ShloMosaic.Lib.Pipeline.Value
import Idealize.ShloMosaic.Lib.ValueIdx
import Idealize.ShloMosaic.Lib.ValueLayout

noncomputable section
open scoped BigOperators
namespace Cert.KernelIdeal.EdgeRegion
open Idealize.ShloMosaic Idealize.ShloMosaic.TcCoe Idealize.ShloMosaic.ValueIdx Idealize.SL.Sem
open Cert.KernelIdeal Cert.KernelIdeal.Gen

/-- The edge region's result as a function of its five operand arrays. -/
def edgeOf (gs gd : FVec Ideal S20x1x25000 .f32) (e : FVec Ideal S500000x128 .f32) (we : FVec Ideal S1x128 .f32)
    (b : FVec Ideal S1x1 .f32) : FVec Ideal S20x1x25000 .f32 :=
  fun i => Ideal.logistic (((gs i + gd i)
    + ∑ k : Fin 128, we (ix2 (0 : Fin 1) k)
        * e (ix2 ⟨25000 * (i 0).val + (i 2).val, by have h0 : (i 0).val < 20 := (i 0).isLt; have h2 : (i 2).val < 25000 := (i 2).isLt; omega⟩ k))
    + b (ix2 (0 : Fin 1) (0 : Fin 1)))

/-! ## One grid point's arithmetic, entry by entry -/

/-- The one weight row against row `q` of a block of 25000 edge rows: the product that contracts the feature axis of
    both, started from zero, is the sum of the 128 products. -/
theorem weight_row_product (we : FVec Ideal S1x128 .f32) (e : FVec Ideal S25000x128 .f32) (q : Fin 25000) :
    FloatOps.matmul dot_S1x128_S25000x128_S1x25000_1_1_0_0_n_n none we e
        (constant (F := Ideal) S1x25000 .f32 0x00000000#32) (ix2 (0 : Fin 1) q)
      = ∑ k : Fin 128, we (ix2 (0 : Fin 1) k) * e (ix2 q k) :=
  DotT.matmul_zero_apply dot_S1x128_S25000x128_S1x25000_1_1_0_0_n_n rfl rfl rfl rfl rfl rfl rfl rfl none we e 0 q

/-- What the body stores for edge `q` of its block: the two gathered node scores added, then the edge row's product
    with the weight row, then the bias, in that order, and the logistic function of the total. The re-shapings between
    [1, 1, 25000] and [1, 25000] only rename the entry. -/
theorem payload_apply (gs gd : FVec Ideal S1x1x25000 .f32) (e : FVec Ideal S25000x128 .f32)
    (we : FVec Ideal S1x128 .f32) (b : FVec Ideal S1x1 .f32) (u v : Fin 1) (q : Fin 25000) :
    k1_pay1 (F := Ideal) we e gs gd b (ix3 u v q)
      = Ideal.logistic (((gs (ix3 (0 : Fin 1) (0 : Fin 1) q) + gd (ix3 (0 : Fin 1) (0 : Fin 1) q))
          + ∑ k : Fin 128, we (ix2 (0 : Fin 1) k) * e (ix2 q k)) + b (ix2 (0 : Fin 1) (0 : Fin 1))) := by
  obtain rfl : v = 0 := Subsingleton.elim _ _
  have hs : shapeCast S1x25000 gs shapeCasts_S1x1x25000_S1x25000 (ix2 (0 : Fin 1) q) = gs (ix3 (0 : Fin 1) (0 : Fin 1) q) :=
    shapeCast_1ab_ab_apply gs _ 0 q
  have hd : shapeCast S1x25000 gd shapeCasts_S1x1x25000_S1x25000 (ix2 (0 : Fin 1) q) = gd (ix3 (0 : Fin 1) (0 : Fin 1) q) :=
    shapeCast_1ab_ab_apply gd _ 0 q
  have hw : matmul dot_S1x128_S25000x128_S1x25000_1_1_0_0_n_n none (shapeCast S1x128 we shapeCasts_S1x128_S1x128) e
        (constant (F := Ideal) S1x25000 .f32 0x00000000#32) (ix2 (0 : Fin 1) q)
      = ∑ k : Fin 128, we (ix2 (0 : Fin 1) k) * e (ix2 q k) := by
    rw [shapeCast_self]; exact weight_row_product we e q
  have hb : broadcastTo S1x25000 (shapeCast S1x1 b shapeCasts_S1x1_S1x1) broadcasts_S1x1_S1x25000 (ix2 (0 : Fin 1) q)
      = b (ix2 (0 : Fin 1) (0 : Fin 1)) := by
    rw [shapeCast_self]
    exact broadcastTo_apply b _ _ (ix2 (0 : Fin 1) (0 : Fin 1)) (fun a => by match a with | ⟨0, _⟩ => rfl | ⟨1, _⟩ => rfl)
  unfold k1_pay1
  refine (shapeCast_ab_1ab_apply _ _ u 0 q).trans ?_
  show Ideal.logistic (((_ + _) + _) + _) = _
  rw [hs, hd, hw, hb]

/-- The same at any index of the [1, 1, 25000] block: only its last coordinate matters. -/
theorem payload_at (gs gd : FVec Ideal S1x1x25000 .f32) (e : FVec Ideal S25000x128 .f32)
    (we : FVec Ideal S1x128 .f32) (b : FVec Ideal S1x1 .f32) (y : S1x1x25000.Idx) :
    k1_pay1 (F := Ideal) we e gs gd b y
      = Ideal.logistic (((gs (ix3 (0 : Fin 1) (0 : Fin 1) (⟨(y 2).val, (y 2).isLt⟩ : Fin 25000))
            + gd (ix3 (0 : Fin 1) (0 : Fin 1) (⟨(y 2).val, (y 2).isLt⟩ : Fin 25000)))
          + ∑ k : Fin 128, we (ix2 (0 : Fin 1) k) * e (ix2 (⟨(y 2).val, (y 2).isLt⟩ : Fin 25000) k))
          + b (ix2 (0 : Fin 1) (0 : Fin 1))) := by
  obtain ⟨u, v, q, rfl⟩ : ∃ (u : Fin 1) (v : Fin 1) (q : Fin 25000), y = ix3 u v q := ⟨y 0, y 1, y 2, eq_ix3 y⟩
  exact payload_apply gs gd e we b u v q

/-! ## The blocks a grid point sees -/

variable (V : (c : Dev nD) → (b : Ref sig .tc) → Buf (Elt Ideal) ((c : Thread nD τ).loc b))

/-- The zero offsets of a rank-2 whole-buffer access, as a constant function. -/
theorem zeros2 : (![0, 0] : Fin 2 → Nat) = fun _ => 0 := funext fun a => by fin_cases a <;> rfl
/-- The zero offsets of a rank-3 whole-buffer access, as a constant function. -/
theorem zeros3 : (![0, 0, 0] : Fin 3 → Nat) = fun _ => 0 := funext fun a => by fin_cases a <;> rfl

/-- The block index of every window at grid point `t`, decided over the 20 points: the two gathered score arrays, the
    edge array and the result move with the point along their leading axis; the weight row and the bias stay. -/
theorem block_indices : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-- Window 0's block at point `t` is row `t` of the gathered source scores. -/
theorem src_block_apply (c : Dev nD) (t : Fin cfg1.N) (y : S1x1x25000.Idx) (i : S20x1x25000.Idx)
    (h0 : (i 0).val = t.val) (h1 : (i 1).val = 0) (h2 : (i 2).val = (y 2).val) :
    (iblk1 V c 0 t : Vec Ideal S1x1x25000 .f32) y = (V c main_v11 : S20x1x25000.Idx → Elt Ideal .f32) i := by
  obtain ⟨e0, e1, e2, -⟩ := block_indices t
  have y0 : (y 0).val < 1 := (y 0).isLt
  have y1 : (y 1).val < 1 := (y 1).isLt
  show V c main_v11 (((cfg1.win 0).blk t).view.emb y) = V c main_v11 i
  refine congrArg _ (funext fun a => Fin.ext ?_)
  match a with
  | ⟨0, _⟩ => show win1_0.index t (0 : Fin 3) * 1 + 1 * (y 0).val = (i 0).val; omega
  | ⟨1, _⟩ => show win1_0.index t (1 : Fin 3) * 1 + 1 * (y 1).val = (i 1).val; omega
  | ⟨2, _⟩ => show win1_0.index t (2 : Fin 3) * 25000 + 1 * (y 2).val = (i 2).val; omega

/-- Window 1's block at point `t` is row `t` of the gathered destination scores. -/
theorem dst_block_apply (c : Dev nD) (t : Fin cfg1.N) (y : S1x1x25000.Idx) (i : S20x1x25000.Idx)
    (h0 : (i 0).val = t.val) (h1 : (i 1).val = 0) (h2 : (i 2).val = (y 2).val) :
    (iblk1 V c 1 t : Vec Ideal S1x1x25000 .f32) y = (V c main_v12 : S20x1x25000.Idx → Elt Ideal .f32) i := by
  obtain ⟨-, -, -, e0, e1, e2, -⟩ := block_indices t
  have y0 : (y 0).val < 1 := (y 0).isLt
  have y1 : (y 1).val < 1 := (y 1).isLt
  show V c main_v12 (((cfg1.win 1).blk t).view.emb y) = V c main_v12 i
  refine congrArg _ (funext fun a => Fin.ext ?_)
  match a with
  | ⟨0, _⟩ => show win1_1.index t (0 : Fin 3) * 1 + 1 * (y 0).val = (i 0).val; omega
  | ⟨1, _⟩ => show win1_1.index t (1 : Fin 3) * 1 + 1 * (y 1).val = (i 1).val; omega
  | ⟨2, _⟩ => show win1_1.index t (2 : Fin 3) * 25000 + 1 * (y 2).val = (i 2).val; omega

/-- Window 2's block at point `t` is rows 25000 t … 25000 t + 24999 of the edge features. -/
theorem edge_block_apply (c : Dev nD) (t : Fin cfg1.N) (y : S25000x128.Idx) (i : S500000x128.Idx)
    (h0 : (i 0).val = 25000 * t.val + (y 0).val) (h1 : (i 1).val = (y 1).val) :
    (iblk1 V c 2 t : Vec Ideal S25000x128 .f32) y = (V c main_arg1 : S500000x128.Idx → Elt Ideal .f32) i := by
  obtain ⟨-, -, -, -, -, -, e0, e1, -⟩ := block_indices t
  show V c main_arg1 (((cfg1.win 2).blk t).view.emb y) = V c main_arg1 i
  refine congrArg _ (funext fun a => Fin.ext ?_)
  match a with
  | ⟨0, _⟩ => show win1_2.index t (0 : Fin 2) * 25000 + 1 * (y 0).val = (i 0).val; omega
  | ⟨1, _⟩ => show win1_2.index t (1 : Fin 2) * 128 + 1 * (y 1).val = (i 1).val; omega

/-- Window 3's block at every point is the whole weight row. -/
theorem weight_block_eq (c : Dev nD) (t : Fin cfg1.N) :
    (iblk1 V c 3 t : Vec Ideal S1x128 .f32) = (V c main_v2 : S1x128.Idx → Elt Ideal .f32) := by
  obtain ⟨-, -, -, -, -, -, -, -, e0, e1, -⟩ := block_indices t
  funext y
  show V c main_v2 (((cfg1.win 3).blk t).view.emb y) = V c main_v2 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block at every point is the whole one-entry bias. -/
theorem bias_block_eq (c : Dev nD) (t : Fin cfg1.N) :
    (iblk1 V c 4 t : Vec Ideal S1x1 .f32) = (V c main_v13 : S1x1.Idx → Elt Ideal .f32) := by
  obtain ⟨-, -, -, -, -, -, -, -, -, -, e0, e1, -⟩ := block_indices t
  funext y
  show V c main_v13 (((cfg1.win 4).blk t).view.emb y) = V c main_v13 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 1 + 1 * (y 1).val = (y 1).val; omega

/-! ## What a grid point writes back, and the array after the last point -/

/-- At entry `y` of point `t`'s block the body's value is the specification at the array index (t, 0, y₂): the score
    blocks are row `t` of their arrays, and row `y₂` of the edge block is row 25000 t + y₂ of the edge features. -/
theorem point_value (c : Dev nD) (t : Fin cfg1.N) (y : S1x1x25000.Idx) (i : S20x1x25000.Idx)
    (h0 : (i 0).val = t.val) (h1 : (i 1).val = 0) (h2 : (i 2).val = (y 2).val) :
    k1_pay1 (F := Ideal) (iblk1 V c 3 t) (iblk1 V c 2 t) (iblk1 V c 0 t) (iblk1 V c 1 t) (iblk1 V c 4 t) y
      = edgeOf (V c main_v11) (V c main_v12) (V c main_arg1) (V c main_v2) (V c main_v13) i := by
  refine (payload_at (iblk1 V c 0 t) (iblk1 V c 1 t) (iblk1 V c 2 t) (iblk1 V c 3 t) (iblk1 V c 4 t) y).trans ?_
  rw [src_block_apply V c t (ix3 (0 : Fin 1) (0 : Fin 1) (⟨(y 2).val, (y 2).isLt⟩ : Fin 25000)) i h0 h1 h2,
    dst_block_apply V c t (ix3 (0 : Fin 1) (0 : Fin 1) (⟨(y 2).val, (y 2).isLt⟩ : Fin 25000)) i h0 h1 h2,
    weight_block_eq V c t, bias_block_eq V c t]
  unfold edgeOf
  refine congrArg Ideal.logistic (congrArg (· + _) (congrArg (HAdd.hAdd _) (Finset.sum_congr rfl fun k _ => congrArg (HMul.hMul _) ?_)))
  exact edge_block_apply V c t _ _ (by show _ = 25000 * t.val + (y 2).val; rw [← h0, ← h2]) rfl

/-- What point `t` writes back to the result array is block `t` of the specification: the body's one store fills the
    whole staging buffer with its value of the point's input blocks. -/
theorem flushed_block (c : Dev nD) (t : Fin cfg1.N) :
    (dat1 (F := Ideal) V c).flushed 5 t = ((cfg1.win 5).blk t).view.read (Elt Ideal)
      (edgeOf (V c main_v11) (V c main_v12) (V c main_arg1) (V c main_v2) (V c main_v13)) := by
  show (cfg1.win 5).cut (grid1.coords t) ((dat1 V c).after 5 t) = _
  rw [after1_5]
  unfold out1_5
  rw [View.canon_unit_zero zeros3]
  simp only [View.ld_unit_zero (S := S1x128) zeros2, View.ld_unit_zero (S := S25000x128) zeros2,
    View.ld_unit_zero (S := S1x1x25000) zeros3, View.ld_unit_zero (S := S1x1) zeros2]
  obtain ⟨-, -, -, -, -, -, -, -, -, -, -, -, e0, e1, e2⟩ := block_indices t
  funext y
  have y0 : (y 0).val < 1 := (y 0).isLt
  have y1 : (y 1).val < 1 := (y 1).isLt
  exact point_value V c t y (((cfg1.win 5).blk t).view.emb y)
    (by show win1_5.index t (0 : Fin 3) * 1 + 1 * (y 0).val = t.val; omega)
    (by show win1_5.index t (1 : Fin 3) * 1 + 1 * (y 1).val = 0; omega)
    (by show win1_5.index t (2 : Fin 3) * 25000 + 1 * (y 2).val = (y 2).val; omega)

/-- An index of the result array lies in point `t`'s block exactly when each coordinate lies in the block's range. -/
theorem mem_block (t : Fin cfg1.N) (i : S20x1x25000.Idx) :
    i ∈ ((cfg1.win 5).blk t).view.set ↔ ∀ a : Fin 3, win1_5.index t a * S1x1x25000.size a ≤ (i a).val
      ∧ (i a).val < win1_5.index t a * S1x1x25000.size a + S1x1x25000.size a := by
  show i ∈ ((View.whole main_v14).slice (win1_5.rect t)).set ↔ _
  rw [View.set_slice_whole, Rect.mem_set_unit]
  exact Iff.rfl

/-- Every index (i₀, 0, i₂) of the result array is written back by point i₀. -/
theorem every_index_covered (i : S20x1x25000.Idx) :
    ∃ t : Fin cfg1.N, (cfg1.win 5).flush t = true ∧ i ∈ ((cfg1.win 5).blk t).view.set := by
  have hi0 : (i 0).val < 20 := (i 0).isLt
  have hi1 : (i 1).val < 1 := (i 1).isLt
  have hi2 : (i 2).val < 25000 := (i 2).isLt
  let t : Fin cfg1.N := ⟨(i 0).val, by show (i 0).val < grid1.N; rw [N_1]; exact hi0⟩
  have ht : t.val = (i 0).val := rfl
  obtain ⟨-, -, -, -, -, -, -, -, -, -, -, -, e0, e1, e2⟩ := block_indices t
  refine ⟨t, flush1_5 t, ?_⟩
  rw [mem_block]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1 ≤ (i 1).val ∧ (i 1).val < win1_5.index t (1 : Fin 3) * 1 + 1; omega
  | ⟨2, _⟩ => show win1_5.index t (2 : Fin 3) * 25000 ≤ (i 2).val ∧ (i 2).val < win1_5.index t (2 : Fin 3) * 25000 + 25000; omega

/-- The result array after the region: the specification of the five operand arrays as the region found them. -/
theorem edge_array (c : Dev nD) :
    (dat1 (F := Ideal) V c).arrAt 5 cfg1.N = edgeOf (V c main_v11) (V c main_v12) (V c main_arg1) (V c main_v2) (V c main_v13) :=
  (dat1 (F := Ideal) V c).arrAt_eq_of_cover 5 _ (fun t _ => flushed_block V c t) every_index_covered

end Cert.KernelIdeal.EdgeRegion
end
-- ==== Proof.KernelValue.lean ====
/-
  The kernel program's result is the edge score.

  The result is the second launch's array laid out as a column, so entry q of the result is entry (q / 25000, 0,
  q mod 25000) of that array. There the launch left the logistic function of: the two gathered operands added, plus
  the edge block's row against the third weight segment, plus the bias. Each gathered operand at that position is a
  column of the first launch's projection at the row edge q's id names, and that projection entry is the node row
  against one stacked weight row, which is one of the first two weight segments. The terms are added in the order the
  specification adds them; the one difference is that the launch multiplies weight by feature where the
  specification multiplies feature by weight, and the product of two extended reals does not depend on the order.
-/
import proofs.«410847_j86792699118121_3_alg».proof.Proof.HostReads
import proofs.«410847_j86792699118121_3_alg».proof.Proof.NodeRegion
import proofs.«410847_j86792699118121_3_alg».proof.Proof.EdgeRegion

set_option maxRecDepth 16384

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen Cert.KernelIdeal.HostChain Cert.KernelIdeal.HostReads
open Cert.KernelIdeal.NodeRegion Cert.KernelIdeal.EdgeRegion Cert.EdgeScore

variable (m : (ℓ : Loc nD τ sig) → Buf (Elt Ideal) ℓ) (ρ : Dev nD → PrngReg)

/-- After the first launch the projection array holds every node row against each stacked weight row. -/
theorem proj_eq (c : Dev nD) : projArr m ρ c = projOf (nodes m c) (stacked (weights m c)) := by
  rw [← entry0_nodes m ρ c, ← entry0_stacked m ρ c]
  exact (W2_arr m ρ c 2).trans (proj_array (V1 m ρ) c)

/-- Column 0 of the projection at node n is the node's features against the first weight segment. -/
theorem proj_col0 (c : Dev nD) (n : Fin 50000) :
    projArr m ρ c (ix2 n (0 : Fin 2)) = nodeDot (nodes m c) (weights m c) 0 (by decide) n := by
  rw [proj_eq]
  show ∑ k : Fin 128, nodes m c (ix2 n k) * stacked (weights m c) (ix2 (0 : Fin 2) k) = _
  unfold nodeDot
  exact Finset.sum_congr rfl fun k _ => by rw [stacked_row0]

/-- Column 1 of the projection at node n is the node's features against the second weight segment. -/
theorem proj_col1 (c : Dev nD) (n : Fin 50000) :
    projArr m ρ c (ix2 n (1 : Fin 2)) = nodeDot (nodes m c) (weights m c) 128 (by decide) n := by
  rw [proj_eq]
  show ∑ k : Fin 128, nodes m c (ix2 n k) * stacked (weights m c) (ix2 (1 : Fin 2) k) = _
  unfold nodeDot
  exact Finset.sum_congr rfl fun k _ => by rw [stacked_row1]

/-- After the second launch its result array is the edge function of the five operands as the host operations
    leave them. -/
theorem out_eq (c : Dev nD) : outArr m ρ c
    = edgeOf (gathered (projArr m ρ c) (srcIds m c) ![0, 0] slices_S50000x2_S50000x1_0_0)
        (gathered (projArr m ρ c) (dstIds m c) ![0, 1] slices_S50000x2_S50000x1_0_1)
        (edges m c) (extractStridedSlice S1x128 ![0, 256] (weights m c) slices_S1x384_S1x128_0_256)
        (shapeCast S1x1 (bias m c) shapeCasts_S1_S1x1) := by
  rw [← entry1_src m ρ c, ← entry1_dst m ρ c, ← entry1_edges m ρ c, ← entry1_third m ρ c, ← entry1_bias m ρ c]
  exact (W7_arr m ρ c 5).trans (edge_array (V6 m ρ) c)

/-- The second launch's array at block a, position r, is the score of edge 25000 a + r. -/
theorem out_apply (c : Dev nD) (a : Fin 20) (r : Fin 25000) :
    outArr m ρ c (ix3 a (0 : Fin 1) r)
      = Ideal.logistic (logit (nodes m c) (edges m c) (srcIds m c) (dstIds m c) (weights m c) (bias m c)
          ⟨25000 * a.val + r.val, by have := a.isLt; have := r.isLt; omega⟩) := by
  rw [out_eq]
  unfold edgeOf
  show Ideal.logistic (((gathered (projArr m ρ c) (srcIds m c) ![0, 0] slices_S50000x2_S50000x1_0_0 (ix3 a (0 : Fin 1) r)
      + gathered (projArr m ρ c) (dstIds m c) ![0, 1] slices_S50000x2_S50000x1_0_1 (ix3 a (0 : Fin 1) r))
      + ∑ k : Fin 128, extractStridedSlice S1x128 ![0, 256] (weights m c) slices_S1x384_S1x128_0_256 (ix2 (0 : Fin 1) k)
          * edges m c (ix2 ⟨25000 * a.val + r.val, by have := a.isLt; have := r.isLt; omega⟩ k))
      + shapeCast S1x1 (bias m c) shapeCasts_S1_S1x1 (ix2 (0 : Fin 1) (0 : Fin 1))) = _
  rw [gathered_apply _ _ ![0, 0] _ (0 : Fin 2) rfl rfl, gathered_apply _ _ ![0, 1] _ (1 : Fin 2) rfl rfl,
    proj_col0, proj_col1, bias_apply]
  unfold logit edgeDot
  congr 3
  exact Finset.sum_congr rfl fun k _ => by rw [third_apply, mul_comm]

/-- The program's result buffer holds the edge score of the argument arrays as launched. -/
theorem kernel_value (c : Dev nD) :
    (W8 m ρ c (Proc.devRef .tc main_v15) : FVec Ideal S500000x1 .f32)
      = score (nodes m c) (edges m c) (srcIds m c) (dstIds m c) (weights m c) (bias m c) := by
  rw [result_eq]
  funext i
  have hi0 : (i 0).val < 500000 := (i 0).isLt
  have hi1 : (i 1).val < 1 := (i 1).isLt
  have ha : (i 0).val / 25000 < 20 := by omega
  have hr : (i 0).val % 25000 < 25000 := Nat.mod_lt _ (by decide)
  rw [shapeCast_apply _ shapeCasts_S20x1x25000_S500000x1 i
    (ix3 (⟨(i 0).val / 25000, ha⟩ : Fin 20) (0 : Fin 1) (⟨(i 0).val % 25000, hr⟩ : Fin 25000))
    (by rw [Shape.rowMajor_val_three, Shape.rowMajor_val_two]
        show ((i 0).val / 25000 * 1 + 0) * 25000 + (i 0).val % 25000 = (i 0).val * 1 + (i 1).val
        omega)]
  rw [out_apply]
  unfold score
  congr 2
  exact Fin.ext (by show 25000 * ((i 0).val / 25000) + (i 0).val % 25000 = (i 0).val; omega)

end Cert.KernelIdeal.KernelValue

end
-- ==== Proof.ReferenceValue.lean ====
import proofs.«410847_j86792699118121_3_alg».proof.Proof.Gen.ReferenceIdeal.Read
import proofs.«410847_j86792699118121_3_alg».proof.Proof.EdgeScore
import Idealize.ShloMosaic.PureOps.Dims
import Idealize.ShloMosaic.PureOps.ShapeOps
import Idealize.ShloMosaic.PureOps.Ideal
import Idealize.ShloMosaic.Lib.Affine
import Idealize.ShloMosaic.Lib.ValueIdx
import Mathlib.Algebra.BigOperators.Group.Finset.Basic

/-
  The reference program computes the edge score.

  The reference turns a negative node id into id + 50000 and leaves any other id alone; under the hypothesis that every
  id is non-negative this step is the identity. It then gathers whole rows of the node table, one for the source and
  one for the destination of each edge: the gather reads each start index as a signed integer and clamps it into the
  table's 50000 rows, which is the row the specification names. Three contractions follow, each the sum over 128
  columns of a gathered row (or of the edge's own features) against one 128-wide segment of the single weight row,
  reached through a slice and a transpose. The three are added left to right, the one bias entry is added, and the
  last four operations are one over one plus the exponential of the negation, with both ones the f32 word for 1.

  Every step is read at one index; no sum is regrouped and no factor moved, so nothing here asks the inputs to be
  finite.
-/

noncomputable section

open scoped BigOperators

namespace Cert.ReferenceValue

open Cert.ReferenceIdeal Cert.ReferenceIdeal.Gen Cert.ReferenceIdeal.Read Cert.EdgeScore
open Idealize.ShloMosaic Idealize.ShloMosaic.ValueIdx

/-- The row gather read at an index. The table has two axes; the first is collapsed and named by the start index map,
    the second is the one offset axis, kept whole (slice sizes 1 and 128). So the gathered array at (q, k) is the table
    at (r, k), where r is the start index at (q, 0) read as a signed integer and clamped into the table's 50000 rows. -/
theorem gather_row_apply {α : Type} (x : S50000x128.Idx → α) (idx : IVec S500000x1 32) (q : Fin 500000) (k : Fin 128) :
    Host.gather gather_S50000x128_S500000x1_S500000x128_1_0_n_n_0_1_1128 x idx (ix2 q k)
      = x (ix2 (row (idx (ix2 q (0 : Fin 1)))) k) := by
  unfold Host.gather
  congr 1
  funext a
  refine Fin.ext ?_
  match a with
  | ⟨0, _⟩ =>
    show gather_S50000x128_S500000x1_S500000x128_1_0_n_n_0_1_1128.start (ix2 q k) idx 0
        + gather_S50000x128_S500000x1_S500000x128_1_0_n_n_0_1_1128.batchCoord (ix2 q k) 0
        + gather_S50000x128_S500000x1_S500000x128_1_0_n_n_0_1_1128.offCoord (ix2 q k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S50000x128.rank) ∈ gather_S50000x128_S500000x1_S500000x128_1_0_n_n_0_1_1128.startIndexMap
      from List.mem_singleton.mpr rfl)]
    have hsi : gather_S50000x128_S500000x1_S500000x128_1_0_n_n_0_1_1128.siIdx (ix2 q k)
        ⟨List.idxOf (0 : Fin S50000x128.rank) gather_S50000x128_S500000x1_S500000x128_1_0_n_n_0_1_1128.startIndexMap,
          List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl
  | ⟨1, _⟩ =>
    show gather_S50000x128_S500000x1_S500000x128_1_0_n_n_0_1_1128.start (ix2 q k) idx 1
        + gather_S50000x128_S500000x1_S500000x128_1_0_n_n_0_1_1128.batchCoord (ix2 q k) 1
        + gather_S50000x128_S500000x1_S500000x128_1_0_n_n_0_1_1128.offCoord (ix2 q k) 1 = k.val
    rw [GatherDims.batchCoord_eq_zero _ _ _ List.not_mem_nil]
    unfold GatherDims.start
    rw [dif_neg (show ¬ (1 : Fin S50000x128.rank) ∈ gather_S50000x128_S500000x1_S500000x128_1_0_n_n_0_1_1128.startIndexMap
      by decide)]
    simp only [Nat.add_zero, Nat.zero_add]
    unfold GatherDims.offCoord
    rw [dif_pos (show (1 : Fin S50000x128.rank) ∈ gather_S50000x128_S500000x1_S500000x128_1_0_n_n_0_1_1128.sKept by decide)]
    rfl

/-- A non-negative source id passes the reference's wrap unchanged: compared with zero as signed integers it is not
    below, so the comparison's bit is 0 and the select on that bit returns the id itself. -/
theorem wrap_src (x2 : (⟨S500000, .i32⟩ : BufTy).Contents (Elt Ideal)) (h2 : ∀ i, 0 ≤ (x2 i).toInt) (j : S500000.Idx) :
    val_main_v4 (F := Ideal) x2 j = x2 j := by
  rw [val_main_v4_apply, val_main_v1_apply, val_main_v0_apply, val_main_c_apply]
  have hb : IntOp.cmpi .slt (x2 j) 0#32 = 0#1 := eq_zero_of_ne_one fun h => by
    have hlt := IntOp.cmpi_slt.mp h
    have h0 := h2 j
    have hz : (0#32 : BitVec 32).toInt = 0 := by decide
    rw [hz] at hlt
    omega
  rw [hb, select_zero]

/-- The same for a destination id. -/
theorem wrap_dst (x3 : (⟨S500000, .i32⟩ : BufTy).Contents (Elt Ideal)) (h3 : ∀ i, 0 ≤ (x3 i).toInt) (j : S500000.Idx) :
    val_main_v11 (F := Ideal) x3 j = x3 j := by
  rw [val_main_v11_apply, val_main_v8_apply, val_main_v7_apply, val_main_c_1_apply]
  have hb : IntOp.cmpi .slt (x3 j) 0#32 = 0#1 := eq_zero_of_ne_one fun h => by
    have hlt := IntOp.cmpi_slt.mp h
    have h0 := h3 j
    have hz : (0#32 : BitVec 32).toInt = 0 := by decide
    rw [hz] at hlt
    omega
  rw [hb, select_zero]

/-- The gathered source rows: entry (q, k) is the node table at (row of edge q's source id, k). -/
theorem src_rows (x0 : (⟨S50000x128, .f32⟩ : BufTy).Contents (Elt Ideal))
    (x2 : (⟨S500000, .i32⟩ : BufTy).Contents (Elt Ideal)) (h2 : ∀ i, 0 ≤ (x2 i).toInt) (q : Fin 500000) (k : Fin 128) :
    val_main_v6 (F := Ideal) x0 x2 (ix2 q k) = x0 (ix2 (row (x2 (ix1 q))) k) := by
  have e : idx_main_v5 (ix2 q (0 : Fin 1)) = ix1 q := by
    funext a; match a with | ⟨0, _⟩ => rfl
  unfold val_main_v6
  rw [gather_row_apply, val_main_v5_apply, wrap_src x2 h2, e]

/-- The gathered destination rows, likewise. -/
theorem dst_rows (x0 : (⟨S50000x128, .f32⟩ : BufTy).Contents (Elt Ideal))
    (x3 : (⟨S500000, .i32⟩ : BufTy).Contents (Elt Ideal)) (h3 : ∀ i, 0 ≤ (x3 i).toInt) (q : Fin 500000) (k : Fin 128) :
    val_main_v13 (F := Ideal) x0 x3 (ix2 q k) = x0 (ix2 (row (x3 (ix1 q))) k) := by
  have e : idx_main_v12 (ix2 q (0 : Fin 1)) = ix1 q := by
    funext a; match a with | ⟨0, _⟩ => rfl
  unfold val_main_v13
  rw [gather_row_apply, val_main_v12_apply, wrap_dst x3 h3, e]

/-- The first weight column, the transposed slice [0:1, 0:128]: its entry (k, 0) is the weight row at column k. -/
theorem w_seg0 (x4 : (⟨S1x384, .f32⟩ : BufTy).Contents (Elt Ideal)) (i : S500000x1.Idx) (k : Fin 128) :
    val_main_v17 (F := Ideal) x4 (ridx_main_v18 i k) = x4 (ix2 (0 : Fin 1) (wcol 0 (by decide) k)) := by
  rw [val_main_v17_apply, val_main_v14_apply]
  congr 1
  funext a
  refine Fin.ext ?_
  match a with
  | ⟨0, _⟩ => show (i 1).val = 0; have := idx2_lt1 i; omega
  | ⟨1, _⟩ => show k.val = 0 + k.val; omega

/-- The second weight column, the transposed slice [0:1, 128:256]: its entry (k, 0) is the weight row at column 128 + k. -/
theorem w_seg1 (x4 : (⟨S1x384, .f32⟩ : BufTy).Contents (Elt Ideal)) (i : S500000x1.Idx) (k : Fin 128) :
    val_main_v19 (F := Ideal) x4 (ridx_main_v20 i k) = x4 (ix2 (0 : Fin 1) (wcol 128 (by decide) k)) := by
  rw [val_main_v19_apply, val_main_v15_apply]
  congr 1
  funext a
  refine Fin.ext ?_
  match a with
  | ⟨0, _⟩ => show (i 1).val = 0; have := idx2_lt1 i; omega
  | ⟨1, _⟩ => show 128 + k.val = 128 + k.val; rfl

/-- The third weight column, the transposed slice [0:1, 256:384]: its entry (k, 0) is the weight row at column 256 + k. -/
theorem w_seg2 (x4 : (⟨S1x384, .f32⟩ : BufTy).Contents (Elt Ideal)) (i : S500000x1.Idx) (k : Fin 128) :
    val_main_v22 (F := Ideal) x4 (ridx_main_v23 i k) = x4 (ix2 (0 : Fin 1) (wcol 256 (by decide) k)) := by
  rw [val_main_v22_apply, val_main_v16_apply]
  congr 1
  funext a
  refine Fin.ext ?_
  match a with
  | ⟨0, _⟩ => show (i 1).val = 0; have := idx2_lt1 i; omega
  | ⟨1, _⟩ => show 256 + k.val = 256 + k.val; rfl

/-- The bias broadcast twice reads the one bias entry everywhere. -/
theorem bias_everywhere (x5 : (⟨S1, .f32⟩ : BufTy).Contents (Elt Ideal)) (i : S500000x1.Idx) :
    val_main_v26 (F := Ideal) x5 i = x5 (ix1 (0 : Fin 1)) := by
  rw [val_main_v26_apply, val_main_v25_apply]
  congr 1
  funext a; match a with | ⟨0, _⟩ => rfl

/-- The reference program computes the edge score. Under non-negative ids the wrap is the identity, each gather reads
    the row the id names, each dot_general is the sum of 128 products of that row (or of the edge's features) with
    one segment of the weight row, the three are added left to right, the bias is added, and the last four operations
    spell the logistic function. No sum is regrouped. -/
theorem ref_is_score
    (x0 : (⟨Cert.ReferenceIdeal.S50000x128, .f32⟩ : BufTy).Contents (Elt Ideal))
    (x1 : (⟨Cert.ReferenceIdeal.S500000x128, .f32⟩ : BufTy).Contents (Elt Ideal))
    (x2 x3 : (⟨Cert.ReferenceIdeal.S500000, .i32⟩ : BufTy).Contents (Elt Ideal))
    (x4 : (⟨Cert.ReferenceIdeal.S1x384, .f32⟩ : BufTy).Contents (Elt Ideal))
    (x5 : (⟨Cert.ReferenceIdeal.S1, .f32⟩ : BufTy).Contents (Elt Ideal))
    (h2 : ∀ i, 0 ≤ (x2 i).toInt) (h3 : ∀ i, 0 ≤ (x3 i).toInt) :
    Cert.ReferenceIdeal.Read.val_main_v33 (F := Ideal) x0 x1 x2 x3 x4 x5 = Cert.EdgeScore.score x0 x1 x2 x3 x4 x5 := by
  funext i
  -- the left operand of each dot_general is read at (q, k), q the edge
  have el18 : ∀ k : Fin 128, lidx_main_v18 i k = ix2 (⟨(i 0).val, (i 0).isLt⟩ : Fin 500000) k := fun k => by
    funext a; match a with | ⟨0, _⟩ => rfl | ⟨1, _⟩ => rfl
  have el20 : ∀ k : Fin 128, lidx_main_v20 i k = ix2 (⟨(i 0).val, (i 0).isLt⟩ : Fin 500000) k := fun k => by
    funext a; match a with | ⟨0, _⟩ => rfl | ⟨1, _⟩ => rfl
  have el23 : ∀ k : Fin 128, lidx_main_v23 i k = ix2 (⟨(i 0).val, (i 0).isLt⟩ : Fin 500000) k := fun k => by
    funext a; match a with | ⟨0, _⟩ => rfl | ⟨1, _⟩ => rfl
  have s1 : val_main_v18 (F := Ideal) x0 x2 x4 i
      = nodeDot x0 x4 0 (by decide) (row (x2 (ix1 (⟨(i 0).val, (i 0).isLt⟩ : Fin 500000)))) := by
    rw [val_main_v18_apply]
    unfold nodeDot
    refine Finset.sum_congr rfl fun k _ => ?_
    rw [el18 k, src_rows x0 x2 h2, w_seg0]
  have s2 : val_main_v20 (F := Ideal) x0 x3 x4 i
      = nodeDot x0 x4 128 (by decide) (row (x3 (ix1 (⟨(i 0).val, (i 0).isLt⟩ : Fin 500000)))) := by
    rw [val_main_v20_apply]
    unfold nodeDot
    refine Finset.sum_congr rfl fun k _ => ?_
    rw [el20 k, dst_rows x0 x3 h3, w_seg1]
  have s3 : val_main_v23 (F := Ideal) x1 x4 i = edgeDot x1 x4 (⟨(i 0).val, (i 0).isLt⟩ : Fin 500000) := by
    rw [val_main_v23_apply]
    unfold edgeDot
    refine Finset.sum_congr rfl fun k _ => ?_
    rw [el23 k, w_seg2]
  rw [val_main_v33_apply, val_main_v32_apply, val_main_cst_3_apply, val_main_v31_apply, val_main_v30_apply,
    val_main_cst_apply, val_main_v29_apply, val_main_v28_apply, val_main_v27_apply, val_main_v24_apply,
    val_main_v21_apply, s1, s2, s3, bias_everywhere]
  simp only [Ideal.hostDivf_def, Ideal.addf_def, Ideal.hostUnary_exp_def, Ideal.hostNegf_def, Ideal.negf_def,
    Ideal.ofBits_def]
  exact logistic_spelt _

end Cert.ReferenceValue

end
-- ==== Proof.IdsNonneg.lean ====
/-
  The printed precondition `finite_inputs` ends in two integer conjuncts: `jnp.all(ids ≥ 0)` for each of the two
  id vectors. Each prints as a signed comparison of the vector against the constant 0 broadcast to its shape, reduced
  by `and` over the whole vector from the constant 1, and the six reductions are joined by a chain of `and` on the
  rank-0 result. When the function's value is 1, every link of the chain is 1; a reduction by `and` that is 1 had a 1
  at every element; and the comparison being 1 at an element says 0 ≤ the word read signed. The four float conjuncts
  are not used here.
-/
import proofs.«410847_j86792699118121_3_alg».proof.Pre_finite_inputs
import Idealize.ShloMosaic.Lib.ReduceAll
import Idealize.ShloMosaic.Lib.ValueIdx
import Idealize.ShloMosaic.Lib.Affine

noncomputable section

namespace Cert.IdsNonneg

open Idealize.ShloMosaic Cert.Pre_finite_inputs

/-- The rank-0 shape has exactly one index: there is no axis to disagree on. -/
instance : Subsingleton S_.Idx := ⟨fun a b => funext fun d => d.elim0⟩

/-- The pointwise `and` of two `i1` arrays is 1 at an index only if both operands are 1 there. -/
theorem andi_at {s : Shape} (x y : IVec s 1) (j : s.Idx) (h : andi x y j = 1#1) : x j = 1#1 ∧ y j = 1#1 :=
  IntOp.andi_eq_one.1 h

/-- `jnp.all(a ≥ 0)` as printed — the signed comparison against the broadcast constant 0, reduced by `and` over the
    whole vector — being 1 says every word of `a` is non-negative read signed: the reduction had a 1 at every element,
    the broadcast scalar reads 0 at every index, and `sge` being 1 is `(0 : BitVec 32).toInt ≤ (a i).toInt`. -/
theorem all_sge_zero [Facts] (a : IVec S500000 32)
    (h : Host.reduce IntOp.andi
          (cmpi .sge a (broadcastInDim S500000 ![] Facts.bcast_S_S500000 (constantI S_ 32 0#32)))
          (constantI S_ 1 1#1) Facts.reducesTo_S500000_S_d0 Facts.h_S_ ValueIdx.ix0 = 1#1)
    (i : S500000.Idx) : 0 ≤ (a i).toInt := by
  have e := Host.reduce_andi_all _ _ _ _ _ h i
  have e' : IntOp.cmpi .sge (a i) (0#32) = 1#1 := e
  have hle : (0#32 : BitVec 32).toInt ≤ (a i).toInt := IntOp.cmpi_sge.1 e'
  simpa using hle

theorem ids_nonneg [Cert.Pre_finite_inputs.Facts]
    (a0 : FVec Ideal Cert.Pre_finite_inputs.S50000x128 .f32) (a1 : FVec Ideal Cert.Pre_finite_inputs.S500000x128 .f32)
    (a2 a3 : IVec Cert.Pre_finite_inputs.S500000 32)
    (a4 : FVec Ideal Cert.Pre_finite_inputs.S1x384 .f32) (a5 : FVec Ideal Cert.Pre_finite_inputs.S1 .f32)
    (hpre : Cert.Pre_finite_inputs.fn (F := Ideal) a0 a1 a2 a3 a4 a5 = fun _ => 1#1) :
    (∀ i, 0 ≤ (a2 i).toInt) ∧ (∀ i, 0 ≤ (a3 i).toInt) := by
  -- the function's value at the rank-0 result's one index
  have e := congrFun hpre ValueIdx.ix0
  dsimp only [Cert.Pre_finite_inputs.fn, Cert.Pre_finite_inputs.fn_part1] at e
  -- the last link of the chain carries the second id vector's conjunct, the link before it the first's
  obtain ⟨h12, h3⟩ := andi_at _ _ _ e
  obtain ⟨-, h2⟩ := andi_at _ _ _ h12
  exact ⟨all_sge_zero a2 h2, all_sge_zero a3 h3⟩

end Cert.IdsNonneg

end
-- ==== Proof.lean ====
/-
  An edge decoder: for each of 500000 edges the score is the logistic function of

      h[src, :] · W[0, 0:128]  +  h[dst, :] · W[0, 128:256]  +  e[q, :] · W[0, 256:384]  +  b[0].

  The reference gathers the source and destination node rows (128 features each) and takes the three dot products per
  edge. The kernel projects every node once onto the first two weight segments (a [50000, 2] table, ten blocks of
  5000 rows), gathers two scalars per edge from that table, and in a second launch (twenty blocks of 25000 edges)
  adds the edge's own projection and the bias and applies the logistic function. Gathering a row and then taking its
  dot product is the same sum of 128 products as taking every row's dot product and then gathering the scalar, so the
  two programs agree term by term; the terms are added in the same order on both sides and no sum is regrouped, so
  the equality holds over all extended reals and the finiteness of the float inputs is not used.

  Where the two programs do differ is on a negative node id: the reference reads a negative id i as i + 50000 (and
  then clamps), the kernel's gather clamps it to row 0. The statement therefore carries the domain conjunct that every
  id is non-negative (an id is an index into the 50000 node rows); at or beyond 50000 both programs clamp to the last
  row, so no upper bound is needed. Under it the reference's wrap is the identity and both sides read the row
  `EdgeScore.row id`.

  The two frames of the kernel programs are their generated frame certificates, the reference's frame is its run with
  the result dropped, and the idealization rewrote nothing, so the preservation claim is trivial.
-/
import proofs.«410847_j86792699118121_3_alg».proof.Defs
import proofs.«410847_j86792699118121_3_alg».proof.Proof.Gen.Kernel
import proofs.«410847_j86792699118121_3_alg».proof.Proof.Gen.Kernel.Skeleton
import proofs.«410847_j86792699118121_3_alg».proof.Proof.Gen.Kernel.Launch
import proofs.«410847_j86792699118121_3_alg».proof.Proof.Gen.Kernel.Points
import proofs.«410847_j86792699118121_3_alg».proof.Proof.Gen.Kernel.Frame
import proofs.«410847_j86792699118121_3_alg».proof.Proof.Gen.KernelIdeal
import proofs.«410847_j86792699118121_3_alg».proof.Proof.Gen.KernelIdeal.Skeleton
import proofs.«410847_j86792699118121_3_alg».proof.Proof.Gen.KernelIdeal.Launch
import proofs.«410847_j86792699118121_3_alg».proof.Proof.Gen.KernelIdeal.Points
import proofs.«410847_j86792699118121_3_alg».proof.Proof.Gen.KernelIdeal.Frame
import proofs.«410847_j86792699118121_3_alg».proof.Proof.Gen.ReferenceIdeal
import proofs.«410847_j86792699118121_3_alg».proof.Proof.Gen.ReferenceIdeal.Run
import proofs.«410847_j86792699118121_3_alg».proof.Proof.Gen.ReferenceIdeal.Read
import proofs.«410847_j86792699118121_3_alg».proof.Proof.Gen.Pre_finite_inputs
import proofs.«410847_j86792699118121_3_alg».proof.Proof.KernelRun
import proofs.«410847_j86792699118121_3_alg».proof.Proof.KernelValue
import proofs.«410847_j86792699118121_3_alg».proof.Proof.ReferenceValue
import proofs.«410847_j86792699118121_3_alg».proof.Proof.IdsNonneg
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arguments, with every id non-negative, both programs end with the edge score
    of those arguments in their result buffer. -/
theorem algebraic : Cert.algebraic_KernelIdeal_ReferenceIdeal := by
  intro m ρ m' ρ' hpre hagree
  refine ⟨fun c => Cert.EdgeScore.score (Cert.KernelIdeal.HostChain.nodes m c) (Cert.KernelIdeal.HostChain.edges m c)
    (Cert.KernelIdeal.HostChain.srcIds m c) (Cert.KernelIdeal.HostChain.dstIds m c)
    (Cert.KernelIdeal.HostChain.weights m c) (Cert.KernelIdeal.HostChain.bias m c), ?_, ?_⟩
  · exact (θ_run Cert.KernelIdeal.defs _ _).mono
      (fun r h c => ⟨(h c).1.trans (Cert.KernelIdeal.KernelValue.kernel_value m ρ c), (h c).2⟩)
      (Cert.KernelIdeal.RunRead.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5⟩ := hagree c
    obtain ⟨h2, h3⟩ := Cert.IdsNonneg.ids_nonneg _ _ _ _ _ _ (hpre c)
    rw [Cert.ReferenceIdeal.Read.val_main_v33_eq, e0, e1, e2, e3, e4, e5]
    exact Cert.ReferenceValue.ref_is_score _ _ _ _ _ _ h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
